-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S4x4096 : Shape := ⟨2, ![4, 4096]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  main_v18

def fn {F : FTy → Type} [FloatOps F] (main_arg0 : FVec F S4x16x4096x64 .f32) (main_arg1 : FVec F S4x16x4096x64 .f32) (main_arg2 : FVec F S4x16x4096x64 .f32) (main_arg3 : FVec F S4x4096 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_v13 main_v16
-- ==== Kernel.lean ====
abbrev S4x16x4096x64 : Shape := ⟨4, ![4, 16, 4096, 64]⟩
abbrev S4x4096 : Shape := ⟨2, ![4, 4096]⟩
abbrev S4x16x64x4096 : Shape := ⟨4, ![4, 16, 64, 4096]⟩
abbrev S4x16x512x8x64 : Shape := ⟨5, ![4, 16, 512, 8, 64]⟩
abbrev S_ : Shape := ⟨0, ![]⟩
abbrev S4x16x512x64 : Shape := ⟨4, ![4, 16, 512, 64]⟩
abbrev S1x1x1024x64 : Shape := ⟨4, ![1, 1, 1024, 64]⟩
abbrev S1x1x512x64 : Shape := ⟨4, ![1, 1, 512, 64]⟩
abbrev S1024x64 : Shape := ⟨2, ![1024, 64]⟩
abbrev S512x64 : Shape := ⟨2, ![512, 64]⟩
abbrev S64x512 : Shape := ⟨2, ![64, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 18
  | .vmem => 10
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x4096, .f32⟩
  | .hbm, ⟨4, _⟩ => ⟨S4x16x64x4096, .f32⟩
  | .hbm, ⟨5, _⟩ => ⟨S4x16x512x8x64, .f32⟩
  | .hbm, ⟨6, _⟩ => ⟨S_, .f32⟩
  | .hbm, ⟨7, _⟩ => ⟨S4x16x512x64, .f32⟩
  | .hbm, ⟨8, _⟩ => ⟨S_, .f32⟩
  | .hbm, ⟨9, _⟩ => ⟨S4x16x512x64, .f32⟩
  | .hbm, ⟨10, _⟩ => ⟨S4x16x512x64, .f32⟩
  | .hbm, ⟨11, _⟩ => ⟨S4x16x512x8x64, .f32⟩
  | .hbm, ⟨12, _⟩ => ⟨S_, .f32⟩
  | .hbm, ⟨13, _⟩ => ⟨S4x16x512x64, .f32⟩
  | .hbm, ⟨14, _⟩ => ⟨S_, .f32⟩
  | .hbm, ⟨15, _⟩ => ⟨S4x16x512x64, .f32⟩
  | .hbm, ⟨16, _⟩ => ⟨S4x16x512x64, .f32⟩
  | .hbm, ⟨17, _⟩ => ⟨S4x16x4096x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x512x64, .f32⟩
  | .local _ .vmem, ⟨3, _⟩ => ⟨S1x1x512x64, .f32⟩
  | .local _ .vmem, ⟨4, _⟩ => ⟨S1x1x512x64, .f32⟩
  | .local _ .vmem, ⟨5, _⟩ => ⟨S1x1x512x64, .f32⟩
  | .local _ .vmem, ⟨6, _⟩ => ⟨S1x1x1024x64, .f32⟩
  | .local _ .vmem, ⟨7, _⟩ => ⟨S1x1x1024x64, .f32⟩
  | .local _ .vmem, ⟨8, _⟩ => ⟨S1x1x1024x64, .f32⟩
  | .local _ .vmem, ⟨9, _⟩ => ⟨S1x1x1024x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  transposes_S4x16x4096x64_S4x16x64x4096_0_1_3_2 : S4x16x4096x64.Transposes [0, 1, 3, 2] S4x16x64x4096
  shapeCasts_S4x16x64x4096_S4x16x512x8x64 : S4x16x64x4096.ShapeCasts S4x16x512x8x64
  reducesTo_S4x16x512x8x64_S4x16x512x64_d3 : S4x16x512x8x64.ReducesTo [3] S4x16x512x64
  h_S_ : 0 < S_.numel
  bcast_S_S4x16x512x64 : S_.BroadcastsInDim S4x16x512x64 (![] : Fin 0 → Fin S4x16x512x64.rank)
  shapeCasts_S4x16x4096x64_S4x16x512x8x64 : S4x16x4096x64.ShapeCasts S4x16x512x8x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  shapeCasts_S1024x64_S1x1x1024x64 : S1024x64.ShapeCasts S1x1x1024x64
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x4096x64.size a
  hwx0_0 : ∀ i : grid0.Coords, EltTy.bits .f32 = 32 ∨ (Rect.block (s := S4x16x4096x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S4x16x512x64.size a
  hwx0_1 : ∀ i : grid0.Coords, EltTy.bits .f32 = 32 ∨ (Rect.block (s := S4x16x512x64) S1x1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x64.size a ≤ S4x16x512x64.size a
  hwx0_2 : ∀ i : grid0.Coords, EltTy.bits .f32 = 32 ∨ (Rect.block (s := S4x16x512x64) S1x1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S4x16x4096x64.size a
  hwx0_3 : ∀ i : grid0.Coords, EltTy.bits .f32 = 32 ∨ (Rect.block (s := S4x16x4096x64) S1x1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x16x4096x64.size a
  hwx0_4 : ∀ i : grid0.Coords, EltTy.bits .f32 = 32 ∨ (Rect.block (s := S4x16x4096x64) S1x1x1024x64.size (cc0_transform_4 i) (hinb0_4 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S4x4096 : Shape := ⟨2, ![4, 4096]⟩
abbrev S4x16x64x4096 : Shape := ⟨4, ![4, 16, 64, 4096]⟩
abbrev S4x16x512x8x64 : Shape := ⟨5, ![4, 16, 512, 8, 64]⟩
abbrev S_ : Shape := ⟨0, ![]⟩
abbrev S4x16x512x64 : Shape := ⟨4, ![4, 16, 512, 64]⟩
abbrev S4x16x4096x512 : Shape := ⟨4, ![4, 16, 4096, 512]⟩
abbrev S4x16x4096 : Shape := ⟨3, ![4, 16, 4096]⟩
abbrev S4x16x4096x1 : Shape := ⟨4, ![4, 16, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x4096, .f32⟩
  | .hbm, ⟨4, _⟩ => ⟨S4x16x64x4096, .f32⟩
  | .hbm, ⟨5, _⟩ => ⟨S4x16x512x8x64, .f32⟩
  | .hbm, ⟨6, _⟩ => ⟨S_, .f32⟩
  | .hbm, ⟨7, _⟩ => ⟨S4x16x512x64, .f32⟩
  | .hbm, ⟨8, _⟩ => ⟨S_, .f32⟩
  | .hbm, ⟨9, _⟩ => ⟨S4x16x512x64, .f32⟩
  | .hbm, ⟨10, _⟩ => ⟨S4x16x512x64, .f32⟩
  | .hbm, ⟨11, _⟩ => ⟨S4x16x4096x512, .f32⟩
  | .hbm, ⟨12, _⟩ => ⟨S_, .f32⟩
  | .hbm, ⟨13, _⟩ => ⟨S4x16x4096x512, .f32⟩
  | .hbm, ⟨14, _⟩ => ⟨S4x16x4096x512, .f32⟩
  | .hbm, ⟨15, _⟩ => ⟨S_, .f32⟩
  | .hbm, ⟨16, _⟩ => ⟨S4x16x4096, .f32⟩
  | .hbm, ⟨17, _⟩ => ⟨S_, .f32⟩
  | .hbm, ⟨18, _⟩ => ⟨S4x16x4096, .f32⟩
  | .hbm, ⟨19, _⟩ => ⟨S4x16x4096, .f32⟩
  | .hbm, ⟨20, _⟩ => ⟨S4x16x4096x1, .f32⟩
  | .hbm, ⟨21, _⟩ => ⟨S4x16x4096x512, .f32⟩
  | .hbm, ⟨22, _⟩ => ⟨S4x16x4096x512, .f32⟩
  | .hbm, ⟨23, _⟩ => ⟨S4x16x4096x512, .f32⟩
  | .hbm, ⟨24, _⟩ => ⟨S_, .f32⟩
  | .hbm, ⟨25, _⟩ => ⟨S4x16x4096, .f32⟩
  | .hbm, ⟨26, _⟩ => ⟨S4x16x4096x1, .f32⟩
  | .hbm, ⟨27, _⟩ => ⟨S4x16x4096x512, .f32⟩
  | .hbm, ⟨28, _⟩ => ⟨S4x16x4096x512, .f32⟩
  | .hbm, ⟨29, _⟩ => ⟨S4x16x512x8x64, .f32⟩
  | .hbm, ⟨30, _⟩ => ⟨S_, .f32⟩
  | .hbm, ⟨31, _⟩ => ⟨S4x16x512x64, .f32⟩
  | .hbm, ⟨32, _⟩ => ⟨S_, .f32⟩
  | .hbm, ⟨33, _⟩ => ⟨S4x16x512x64, .f32⟩
  | .hbm, ⟨34, _⟩ => ⟨S4x16x512x64, .f32⟩
  | .hbm, ⟨35, _⟩ => ⟨S4x16x4096x64, .f32⟩
  | .hbm, ⟨36, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  transposes_S4x16x4096x64_S4x16x64x4096_0_1_3_2 : S4x16x4096x64.Transposes [0, 1, 3, 2] S4x16x64x4096
  shapeCasts_S4x16x64x4096_S4x16x512x8x64 : S4x16x64x4096.ShapeCasts S4x16x512x8x64
  reducesTo_S4x16x512x8x64_S4x16x512x64_d3 : S4x16x512x8x64.ReducesTo [3] S4x16x512x64
  h_S_ : 0 < S_.numel
  bcast_S_S4x16x512x64 : S_.BroadcastsInDim S4x16x512x64 (![] : Fin 0 → Fin S4x16x512x64.rank)
  bcast_S_S4x16x4096x512 : S_.BroadcastsInDim S4x16x4096x512 (![] : Fin 0 → Fin S4x16x4096x512.rank)
  reducesTo_S4x16x4096x512_S4x16x4096_d3 : S4x16x4096x512.ReducesTo [3] S4x16x4096
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x512_0_1_2_3 : S4x16x4096x1.BroadcastsInDim S4x16x4096x512 (![0, 1, 2, 3] : Fin 4 → Fin S4x16x4096x512.rank)
  shapeCasts_S4x16x4096x64_S4x16x512x8x64 : S4x16x4096x64.ShapeCasts S4x16x512x8x64
  dot_S4x16x4096x64_S4x16x512x64_S4x16x4096x512_3_3_2_2_01_01_wf : DotDims.WF S4x16x4096x64 S4x16x512x64 S4x16x4096x512 [3] [3] [2] [2] [0, 1] [0, 1]
  dot_S4x16x4096x512_S4x16x512x64_S4x16x4096x64_3_2_2_3_01_01_wf : DotDims.WF S4x16x4096x512 S4x16x512x64 S4x16x4096x64 [3] [2] [2] [3] [0, 1] [0, 1]

variable [Facts₀]

def dot_S4x16x4096x64_S4x16x512x64_S4x16x4096x512_3_3_2_2_01_01 : DotDims S4x16x4096x64 S4x16x512x64 S4x16x4096x512 where
  lhsContracting := [3]
  rhsContracting := [3]
  lhsNonContracting := [2]
  rhsNonContracting := [2]
  lhsBatch := [0, 1]
  rhsBatch := [0, 1]
  wf := dot_S4x16x4096x64_S4x16x512x64_S4x16x4096x512_3_3_2_2_01_01_wf
def dot_S4x16x4096x512_S4x16x512x64_S4x16x4096x64_3_2_2_3_01_01 : DotDims S4x16x4096x512 S4x16x512x64 S4x16x4096x64 where
  lhsContracting := [3]
  rhsContracting := [2]
  lhsNonContracting := [2]
  rhsNonContracting := [3]
  lhsBatch := [0, 1]
  rhsBatch := [0, 1]
  wf := dot_S4x16x4096x512_S4x16x512x64_S4x16x4096x64_3_2_2_3_01_01_wf

class Facts : Prop extends Facts₀ where

variable [Facts]
-- ==== Proof.SoftmaxRow.lean ====
/-
  What both programs compute, row by row, over the extended reals.

  For a batch b, a head h and a query row n, the score of sketch slot m is the inner product of
  the query row with the slot's averaged key row, scaled by one eighth:
      score m = (∑ k, Q[b,h,n,k] · S[b,h,m,k]) · (1/8).
  The scores are turned into weights by the stabilised soft-max: with the row's maximum
      M = max(−∞, max_m score m),
  the weight of slot m is  exp(score m − M) / ∑_{m'} exp(score m' − M),
  and the result entry is the weighted mix of the averaged value rows plus the value itself:
      out[b,h,n,d] = (∑ m, weight m · W[b,h,m,d]) + V[b,h,n,d].

  The one arithmetic law used between the two programs lives here too: dividing by the real 8 is
  multiplying by the real 1/8 on every extended real, the infinities included, so nothing about
  finiteness of the inputs is needed.
-/
import Idealize.ShloMosaic.PureOps.Ideal
import Idealize.ShloMosaic.PureOps.Ideal.Laws
import Idealize.ShloMosaic.Lib.ValueIdx

noncomputable section

namespace SketchAttention

open Idealize.ShloMosaic Idealize.ShloMosaic.ValueIdx

/-- The word both programs spell for −∞; it is the same word on both sides and is never evaluated. -/
abbrev negInf : EReal := Ideal.ofBits .f32 0xFF800000#32

/-- The word the kernel spells for its scale, one eighth. -/
abbrev eighth : EReal := Ideal.ofBits .f32 0x3E000000#32

/-- A query row against one averaged key row: their inner product over the 64 features, times 1/8. -/
def score (q s : Fin 64 → EReal) : EReal := (∑ k : Fin 64, q k * s k) * eighth

/-- The soft-max's shift: the largest of the 512 scores, never below −∞'s word. -/
def rowMax (l : Fin 512 → EReal) : EReal :=
  max negInf ((Finset.univ : Finset (Fin 512)).fold max negInf l)

/-- The soft-max weight of slot `m` among the 512 scores `l`. -/
def weight (l : Fin 512 → EReal) (m : Fin 512) : EReal :=
  Ideal.div (Ideal.exp (l m - rowMax l)) (∑ m' : Fin 512, Ideal.exp (l m' - rowMax l))

/-- One result entry: the weights' mix of one feature column of the averaged values, plus the residual. -/
def mixed (l w : Fin 512 → EReal) (v : EReal) : EReal := (∑ m : Fin 512, weight l m * w m) + v

/-- The whole result array as one function of the queries `Q`, the averaged keys `S`, the averaged values
    `W` and the values `V`, index by index. -/
def attend (Q : (⟨4, ![4, 16, 4096, 64]⟩ : Shape).Idx → EReal) (S W : (⟨4, ![4, 16, 512, 64]⟩ : Shape).Idx → EReal)
    (V : (⟨4, ![4, 16, 4096, 64]⟩ : Shape).Idx → EReal) : (⟨4, ![4, 16, 4096, 64]⟩ : Shape).Idx → EReal := fun i =>
  mixed (fun m => score (fun k => Q (ix4 (i 0) (i 1) (i 2) k)) (fun k => S (ix4 (i 0) (i 1) m k)))
    (fun m => W (ix4 (i 0) (i 1) m (i 3))) (V i)

/-- `attend` at an index given by its four coordinates. -/
theorem attend_apply (Q : (⟨4, ![4, 16, 4096, 64]⟩ : Shape).Idx → EReal) (S W : (⟨4, ![4, 16, 512, 64]⟩ : Shape).Idx → EReal)
    (V : (⟨4, ![4, 16, 4096, 64]⟩ : Shape).Idx → EReal) (b : Fin 4) (h : Fin 16) (n : Fin 4096) (d : Fin 64) :
    attend Q S W V (ix4 b h n d)
      = mixed (fun m => score (fun k => Q (ix4 b h n k)) (fun k => S (ix4 b h m k))) (fun m => W (ix4 b h m d)) (V (ix4 b h n d)) := rfl

/-- Two scores agree when their rows agree entry by entry. -/
theorem score_congr {q q' s s' : Fin 64 → EReal} (hq : ∀ k, q k = q' k) (hs : ∀ k, s k = s' k) : score q s = score q' s' := by
  rw [funext hq, funext hs]

/-- Two mixes agree when their scores, their columns and their residuals agree. -/
theorem mixed_congr {l l' w w' : Fin 512 → EReal} {v v' : EReal} (hl : ∀ s, l s = l' s) (hw : ∀ s, w s = w' s) (hv : v = v') :
    mixed l w v = mixed l' w' v' := by
  rw [funext hl, funext hw, hv]

/-- The reference's divisor word denotes the real 8. -/
theorem ofBits_eight : Ideal.ofBits .f32 0x41000000#32 = ((8 : ℝ) : EReal) := by
  simp [Ideal.ofBits, Ideal.ieee, -EReal.coe_mul]; norm_num

/-- The kernel's scale word denotes the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, at every extended real. -/
theorem div_eight (x : EReal) : Ideal.div x (Ideal.ofBits .f32 0x41000000#32) = x * eighth := by
  rw [ofBits_eight, Ideal.div_coe (by norm_num), eighth, ofBits_eighth]

end SketchAttention

end
-- ==== Proof.KernelBody.lean ====
/-
  The kernel body's result block, read entry by entry.

  At a grid point the body holds a 1024 x 64 tile of queries, the 512 x 64 averaged keys and averaged
  values of its (batch, head), and the 1024 x 64 tile of values. Row r, feature d of what it stores is
      (∑ m, weight_r m · W[m, d]) + V[r, d],
  where weight_r is the soft-max of the 512 scores  score_r m = (∑ k, Q[r, k] · S[m, k]) · (1/8).
  Changes of float format are the identity on the extended reals, a matrix product into the zero
  accumulator is the plain sum of products over the contracted axis, a lane sum is the sum over the
  lane coordinate and a lane maximum is the fold of max over it; the remaining operations only move
  entries around (drop the two unit axes, transpose, make a column of a vector and spread it along rows).
-/
import proofs.«117137_j41257455845835_1_alg».proof.Proof.Gen.KernelIdeal.Skeleton
import proofs.«117137_j41257455845835_1_alg».proof.Proof.SoftmaxRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx SketchAttention

/-! ## Entries moved, not changed -/

/-- Dropping the two leading unit axes of a [1, 1, a, b] block: entry (i, j) is entry (0, 0, i, j). -/
theorem unbatch_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A vector of length a made a column [a, 1]: its entry (r, 0) is entry r. -/
theorem column_apply {α : Type} {a : ℕ} (y : (⟨1, ![a]⟩ : Shape).Idx → α)
    (h : (⟨1, ![a]⟩ : Shape).ShapeCasts ⟨2, ![a, 1]⟩) (r : Fin a) (u : Fin 1) :
    shapeCast ⟨2, ![a, 1]⟩ y h (ix2 r u) = y (ix1 r) :=
  shapeCast_apply y h _ _ (by
    rw [Shape.rowMajor_val_one, Shape.rowMajor_val_two]
    show r.val = r.val * 1 + u.val
    have := u.isLt; omega)

/-- A column spread along the 512 lanes: entry (r, m) is the column's entry (r, 0). -/
theorem spread_apply {α : Type} (z : S1024x1.Idx → α) (h : S1024x1.Broadcasts S1024x512) (r : Fin 1024) (m : Fin 512) :
    broadcastTo S1024x512 z h (ix2 r m) = z (ix2 r (0 : Fin 1)) :=
  broadcastTo_apply z h _ _ fun a => match a with | ⟨0, _⟩ => rfl | ⟨1, _⟩ => rfl

/-! ## The two lane reductions -/

/-- The lane sum of row r: the sum of the row's 512 entries. -/
theorem laneSum_apply (y : FVec Ideal S1024x512 .f32) (h : S1024x512.Reduces [1] S1024) (hφ : FKind.Formats .f32)
    (hacc : (0x00000000#32 : BitVec 32) = FKind.add.neutral .f32 hφ) (r : Fin 1024) :
    multiReduction .add [1] S1024 y 0x00000000#32 h hφ hacc (ix1 r) = ∑ m : Fin 512, y (ix2 r m) := by
  rw [Ideal.multiReduction_add_single]
  refine Finset.sum_congr rfl fun m _ => congrArg y (funext fun a => Fin.ext ?_)
  match a with | ⟨0, _⟩ => rfl | ⟨1, _⟩ => rfl

/-- The lane maximum of row r: the fold of max over the row's 512 entries, from −∞'s word. -/
theorem laneMax_apply (y : FVec Ideal S1024x512 .f32) (h : S1024x512.Reduces [1] S1024) (hφ : FKind.Formats .f32)
    (hacc : (0xFF800000#32 : BitVec 32) = FKind.maximumf.neutral .f32 hφ) (r : Fin 1024) :
    multiReduction .maximumf [1] S1024 y 0xFF800000#32 h hφ hacc (ix1 r)
      = (Finset.univ : Finset (Fin 512)).fold max negInf (fun m => y (ix2 r m)) := by
  rw [Ideal.multiReduction_maximumf_single]
  have e : (y ∘ h.lift (ix1 r)) = fun m : Fin 512 => y (ix2 r m) :=
    funext fun m => congrArg y (funext fun a => Fin.ext (by match a with | ⟨0, _⟩ => rfl | ⟨1, _⟩ => rfl))
  rw [e]; rfl

/-! ## The two matrix products -/

theorem qk_lhs_0 (i : S1024x512.Idx) (q : dot_S1024x64_S64x512_S1024x512_1_0_0_1_n_n.contr.Idx) :
    (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem qk_lhs_1 (i : S1024x512.Idx) (q : dot_S1024x64_S64x512_S1024x512_1_0_0_1_n_n.contr.Idx) :
    (dot_S1024x64_S64x512_S1024x512_1_0_0_1_n_n.lhsIdx i q 1).val = (q ⟨0, by decide⟩).val :=
  dot_S1024x64_S64x512_S1024x512_1_0_0_1_n_n.lhsIdx_val_of_single rfl i q
theorem qk_rhs_0 (i : S1024x512.Idx) (q : dot_S1024x64_S64x512_S1024x512_1_0_0_1_n_n.contr.Idx) :
    (dot_S1024x64_S64x512_S1024x512_1_0_0_1_n_n.rhsIdx i q 0).val = (q ⟨0, by decide⟩).val :=
  dot_S1024x64_S64x512_S1024x512_1_0_0_1_n_n.rhsIdx_val_of_single rfl i q
theorem qk_rhs_1 (i : S1024x512.Idx) (q : dot_S1024x64_S64x512_S1024x512_1_0_0_1_n_n.contr.Idx) :
    (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

/-- Queries against transposed keys, into zero: entry (r, m) is the sum over the 64 features. -/
theorem qk_apply (a : FVec Ideal S1024x64 .bf16) (b : FVec Ideal S64x512 .bf16) (r : Fin 1024) (m : Fin 512) :
    matmul dot_S1024x64_S64x512_S1024x512_1_0_0_1_n_n none a b (constant S1024x512 .f32 0x00000000#32) (ix2 r m)
      = ∑ k : Fin 64, a (ix2 r k) * b (ix2 k m) := by
  simp only [matmul]
  rw [Ideal.matmul_constant_zero_apply, ← Equiv.sum_comp (contrEquiv1 dot_S1024x64_S64x512_S1024x512_1_0_0_1_n_n 64 rfl rfl).symm]
  refine Finset.sum_congr rfl fun k _ => ?_
  have hk := contrEquiv1_symm_val dot_S1024x64_S64x512_S1024x512_1_0_0_1_n_n 64 rfl rfl k
  have el : dot_S1024x64_S64x512_S1024x512_1_0_0_1_n_n.lhsIdx (ix2 r m) ((contrEquiv1 dot_S1024x64_S64x512_S1024x512_1_0_0_1_n_n 64 rfl rfl).symm k) = ix2 r k := funext fun c => Fin.ext (by
    match c with
    | ⟨0, _⟩ => exact qk_lhs_0 _ _
    | ⟨1, _⟩ => exact (qk_lhs_1 _ _).trans hk)
  have er : dot_S1024x64_S64x512_S1024x512_1_0_0_1_n_n.rhsIdx (ix2 r m) ((contrEquiv1 dot_S1024x64_S64x512_S1024x512_1_0_0_1_n_n 64 rfl rfl).symm k) = ix2 k m := funext fun c => Fin.ext (by
    match c with
    | ⟨0, _⟩ => exact (qk_rhs_0 _ _).trans hk
    | ⟨1, _⟩ => exact qk_rhs_1 _ _)
  rw [el, er]

theorem av_lhs_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem av_lhs_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
theorem av_rhs_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
theorem av_rhs_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- Weights against averaged values, into zero: entry (r, d) is the sum over the 512 slots. -/
theorem av_apply (a : FVec Ideal S1024x512 .bf16) (b : FVec Ideal S512x64 .bf16) (r : Fin 1024) (d : Fin 64) :
    matmul dot_S1024x512_S512x64_S1024x64_1_0_0_1_n_n none a b (constant S1024x64 .f32 0x00000000#32) (ix2 r d)
      = ∑ m : Fin 512, a (ix2 r m) * b (ix2 m d) := by
  simp only [matmul]
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r d) ((contrEquiv1 dot_S1024x512_S512x64_S1024x64_1_0_0_1_n_n 512 rfl rfl).symm k) = ix2 r k := funext fun c => Fin.ext (by
    match c with
    | ⟨0, _⟩ => exact av_lhs_0 _ _
    | ⟨1, _⟩ => exact (av_lhs_1 _ _).trans hk)
  have er : dot_S1024x512_S512x64_S1024x64_1_0_0_1_n_n.rhsIdx (ix2 r d) ((contrEquiv1 dot_S1024x512_S512x64_S1024x64_1_0_0_1_n_n 512 rfl rfl).symm k) = ix2 k d := funext fun c => Fin.ext (by
    match c with
    | ⟨0, _⟩ => exact (av_rhs_0 _ _).trans hk
    | ⟨1, _⟩ => exact av_rhs_1 _ _)
  rw [el, er]

/-! ## The soft-max of a block of scores -/

/-- The vector exponential, entry by entry. -/
theorem exp_apply {s : Shape} {φ : FTy} (a : FVec Ideal s φ) (i : s.Idx) : exp a i = Ideal.exp (a i) := rfl

/-- For any 1024 x 512 block of scores `L`, the body's chain — lane maximum, maximum with −∞, the column spread
    back, subtract, exponentiate, lane sum, the column spread back, divide — leaves at (r, m) the soft-max weight
    of slot m among row r's 512 scores. -/
theorem softmax_apply (L : FVec Ideal S1024x512 .f32) (h : S1024x512.Reduces [1] S1024) (hφ : FKind.Formats .f32)
    (hmax : (0xFF800000#32 : BitVec 32) = FKind.maximumf.neutral .f32 hφ)
    (hadd : (0x00000000#32 : BitVec 32) = FKind.add.neutral .f32 hφ)
    (hc : S1024.ShapeCasts S1024x1) (hb : S1024x1.Broadcasts S1024x512) (r : Fin 1024) (m : Fin 512) :
    divf
        (exp (subf L (broadcastTo S1024x512 (shapeCast S1024x1
          (maximumf (broadcast S1024 (FloatOps.ofBits .f32 0xFF800000#32)) (multiReduction .maximumf [1] S1024 L 0xFF800000#32 h hφ hmax)) hc) hb)))
        (broadcastTo S1024x512 (shapeCast S1024x1
          (multiReduction .add [1] S1024
            (exp (subf L (broadcastTo S1024x512 (shapeCast S1024x1
              (maximumf (broadcast S1024 (FloatOps.ofBits .f32 0xFF800000#32)) (multiReduction .maximumf [1] S1024 L 0xFF800000#32 h hφ hmax)) hc) hb)))
            0x00000000#32 h hφ hadd) hc) hb)
        (ix2 r m)
      = weight (fun m' => L (ix2 r m')) m := by
  have hs : ∀ m' : Fin 512,
      subf L (broadcastTo S1024x512 (shapeCast S1024x1
          (maximumf (broadcast S1024 (FloatOps.ofBits .f32 0xFF800000#32)) (multiReduction .maximumf [1] S1024 L 0xFF800000#32 h hφ hmax)) hc) hb) (ix2 r m')
        = L (ix2 r m') - rowMax (fun m'' => L (ix2 r m'')) := by
    intro m'
    rw [subf_apply, spread_apply, column_apply, maximumf_apply, broadcast_apply, laneMax_apply]
    rfl
  rw [divf_apply, exp_apply, hs, spread_apply, column_apply, laneSum_apply]
  unfold weight
  refine congrArg (Ideal.div _) (Finset.sum_congr rfl fun m' _ => ?_)
  rw [exp_apply, hs]

/-! ## The body's result at an entry -/

/-- Row r, feature d of what the body stores, from the four loaded blocks: the soft-max weights of row r's scores
    against the averaged keys, mixed over feature d of the averaged values, plus the value at (r, d). -/
theorem payload_apply (x0 : Vec Ideal S1x1x1024x64 .f32) (x1 x2 : Vec Ideal S1x1x512x64 .f32) (x3 : Vec Ideal S1x1x1024x64 .f32)
    (r : Fin 1024) (d : Fin 64) :
    k0_pay2 (F := Ideal) x0 x1 x2 x3 (ix2 r d)
      = mixed (fun m => score (fun k => x0 (ix4 (0 : Fin 1) (0 : Fin 1) r k)) (fun k => x1 (ix4 (0 : Fin 1) (0 : Fin 1) m k)))
          (fun m => x2 (ix4 (0 : Fin 1) (0 : Fin 1) m d)) (x3 (ix4 (0 : Fin 1) (0 : Fin 1) r d)) := by
  unfold k0_pay2
  dsimp only
  rw [addf_apply, av_apply, unbatch_apply]
  unfold mixed
  refine congrArg (· + _) (Finset.sum_congr rfl fun m _ => ?_)
  rw [truncf_apply, truncf_apply, unbatch_apply]
  refine congrArg (· * _) ?_
  refine (softmax_apply _ _ _ _ _ _ _ r m).trans ?_
  refine congrArg (fun l => weight l m) (funext fun m' => ?_)
  rw [mulf_apply, broadcast_apply, qk_apply]
  unfold score
  refine congrArg (· * _) (Finset.sum_congr rfl fun k _ => ?_)
  rw [truncf_apply, unbatch_apply, transpose_ix2_apply, truncf_apply, unbatch_apply]

end Cert.KernelIdeal.Body

end
-- ==== Proof.KernelArray.lean ====
/-
  From blocks to the whole result array.

  The grid has 4 · 16 · 4 = 256 points; point t is (batch, head, tile) = (t / 64, t / 4 mod 16, t mod 4).
  There the query and value windows and the output window sit at rows 1024·tile … 1024·tile + 1023 of that
  (batch, head), and the two sketch windows are the whole 512 x 64 sketches of that (batch, head). So row r,
  feature d of the block point t writes back is entry (batch, head, 1024·tile + r, d) of ONE function of the
  four arrays the region finds, `attend`; the 256 blocks tile the result array, hence the array ends equal to it.
-/
import proofs.«117137_j41257455845835_1_alg».proof.Proof.Gen.KernelIdeal.Value
import proofs.«117137_j41257455845835_1_alg».proof.Proof.KernelBody

set_option maxRecDepth 16384

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx SketchAttention
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- Every window's block index at point t, in closed form (decided over the 256 points). -/
theorem idx_facts : ∀ t : Fin cfg0.N,
    win0_0.index t (0 : Fin 4) = t.val / 64 ∧ win0_0.index t (1 : Fin 4) = t.val / 4 % 16 ∧ win0_0.index t (2 : Fin 4) = t.val % 4 ∧ win0_0.index t (3 : Fin 4) = 0
    ∧ win0_1.index t (0 : Fin 4) = t.val / 64 ∧ win0_1.index t (1 : Fin 4) = t.val / 4 % 16 ∧ win0_1.index t (2 : Fin 4) = 0 ∧ win0_1.index t (3 : Fin 4) = 0
    ∧ win0_2.index t (0 : Fin 4) = t.val / 64 ∧ win0_2.index t (1 : Fin 4) = t.val / 4 % 16 ∧ win0_2.index t (2 : Fin 4) = 0 ∧ win0_2.index t (3 : Fin 4) = 0
    ∧ win0_3.index t (0 : Fin 4) = t.val / 64 ∧ win0_3.index t (1 : Fin 4) = t.val / 4 % 16 ∧ win0_3.index t (2 : Fin 4) = t.val % 4 ∧ win0_3.index t (3 : Fin 4) = 0
    ∧ win0_4.index t (0 : Fin 4) = t.val / 64 ∧ win0_4.index t (1 : Fin 4) = t.val / 4 % 16 ∧ win0_4.index t (2 : Fin 4) = t.val % 4 ∧ win0_4.index t (3 : Fin 4) = 0 :=
  (by decide +kernel : ∀ t : Fin grid0.N, _)

/-- The result array as one function of the arrays the region finds: queries, averaged keys, averaged values, values. -/
abbrev whole (c : Dev nD) : S4x16x4096x64.Idx → EReal :=
  attend (V m c main_arg0) (V m c main_v4) (V m c main_v8) (V m c main_arg2)

/-- What the body leaves in the output block, at block index y, from ANY four loaded blocks: row y₂, feature y₃ of
    the soft-max mix (the block's two leading axes have one coordinate each). -/
theorem block_eq (P0 : Vec Ideal S1x1x1024x64 .f32) (P1 P2 : Vec Ideal S1x1x512x64 .f32) (P3 : Vec Ideal S1x1x1024x64 .f32)
    (y : S1x1x1024x64.Idx) (r : Fin 1024) (d : Fin 64) (hr : r.val = (y 2).val) (hd : d.val = (y 3).val) :
    out0_4 P0 P1 P2 P3 y
      = mixed (fun s => score (fun k => P0 (ix4 (0 : Fin 1) (0 : Fin 1) r k)) (fun k => P1 (ix4 (0 : Fin 1) (0 : Fin 1) s k)))
          (fun s => P2 (ix4 (0 : Fin 1) (0 : Fin 1) s d)) (P3 (ix4 (0 : Fin 1) (0 : Fin 1) r d)) := by
  unfold out0_4
  simp only [View.ld_unit_zero (S := S1x1x1024x64) hz, View.ld_unit_zero (S := S1x1x512x64) hz]
  rw [canon4_eq]
  have e : ix4_0 y = ix2 r d := funext fun a => Fin.ext (by
    match a with
    | ⟨0, _⟩ => exact hr.symm
    | ⟨1, _⟩ => exact hd.symm)
  dsimp only [E4]
  rw [e, payload_apply]

/-! ## Each window's block, read where the output's block sits -/

/-- Row r, feature k of the query block at point t is the query array at (batch, head, 1024·tile + r, k). -/
theorem read_queries (c : Dev nD) (t : Fin cfg0.N) (r : Fin 1024) (k : Fin 64) (i : S4x16x4096x64.Idx)
    (h0 : (i 0).val = t.val / 64) (h1 : (i 1).val = t.val / 4 % 16) (h2 : (i 2).val = t.val % 4 * 1024 + r.val) (h3 : (i 3).val = k.val) :
    (iblk m c 0 t : Vec Ideal S1x1x1024x64 .f32) (ix4 (0 : Fin 1) (0 : Fin 1) r k) = (V m c main_arg0 : S4x16x4096x64.Idx → EReal) i := by
  obtain ⟨a0, a1, a2, a3, -⟩ := idx_facts t
  unfold iblk
  rw [View.read_apply]
  refine congrArg (V m c main_arg0 : S4x16x4096x64.Idx → EReal) (funext fun a => Fin.ext ?_)
  match a with
  | ⟨0, _⟩ => show win0_0.index t (0 : Fin 4) * 1 + 1 * 0 = (i 0).val; omega
  | ⟨1, _⟩ => show win0_0.index t (1 : Fin 4) * 1 + 1 * 0 = (i 1).val; omega
  | ⟨2, _⟩ => show win0_0.index t (2 : Fin 4) * 1024 + 1 * r.val = (i 2).val; omega
  | ⟨3, _⟩ => show win0_0.index t (3 : Fin 4) * 64 + 1 * k.val = (i 3).val; omega

/-- Slot s, feature k of the averaged-key block at point t is the averaged-key array at (batch, head, s, k). -/
theorem read_keys (c : Dev nD) (t : Fin cfg0.N) (s : Fin 512) (k : Fin 64) (i : S4x16x512x64.Idx)
    (h0 : (i 0).val = t.val / 64) (h1 : (i 1).val = t.val / 4 % 16) (h2 : (i 2).val = s.val) (h3 : (i 3).val = k.val) :
    (iblk m c 1 t : Vec Ideal S1x1x512x64 .f32) (ix4 (0 : Fin 1) (0 : Fin 1) s k) = (V m c main_v4 : S4x16x512x64.Idx → EReal) i := by
  obtain ⟨-, -, -, -, a0, a1, a2, a3, -⟩ := idx_facts t
  unfold iblk
  rw [View.read_apply]
  refine congrArg (V m c main_v4 : S4x16x512x64.Idx → EReal) (funext fun a => Fin.ext ?_)
  match a with
  | ⟨0, _⟩ => show win0_1.index t (0 : Fin 4) * 1 + 1 * 0 = (i 0).val; omega
  | ⟨1, _⟩ => show win0_1.index t (1 : Fin 4) * 1 + 1 * 0 = (i 1).val; omega
  | ⟨2, _⟩ => show win0_1.index t (2 : Fin 4) * 512 + 1 * s.val = (i 2).val; omega
  | ⟨3, _⟩ => show win0_1.index t (3 : Fin 4) * 64 + 1 * k.val = (i 3).val; omega

/-- Slot s, feature d of the averaged-value block at point t is the averaged-value array at (batch, head, s, d). -/
theorem read_sketch (c : Dev nD) (t : Fin cfg0.N) (s : Fin 512) (d : Fin 64) (i : S4x16x512x64.Idx)
    (h0 : (i 0).val = t.val / 64) (h1 : (i 1).val = t.val / 4 % 16) (h2 : (i 2).val = s.val) (h3 : (i 3).val = d.val) :
    (iblk m c 2 t : Vec Ideal S1x1x512x64 .f32) (ix4 (0 : Fin 1) (0 : Fin 1) s d) = (V m c main_v8 : S4x16x512x64.Idx → EReal) i := by
  obtain ⟨-, -, -, -, -, -, -, -, a0, a1, a2, a3, -⟩ := idx_facts t
  unfold iblk
  rw [View.read_apply]
  refine congrArg (V m c main_v8 : S4x16x512x64.Idx → EReal) (funext fun a => Fin.ext ?_)
  match a with
  | ⟨0, _⟩ => show win0_2.index t (0 : Fin 4) * 1 + 1 * 0 = (i 0).val; omega
  | ⟨1, _⟩ => show win0_2.index t (1 : Fin 4) * 1 + 1 * 0 = (i 1).val; omega
  | ⟨2, _⟩ => show win0_2.index t (2 : Fin 4) * 512 + 1 * s.val = (i 2).val; omega
  | ⟨3, _⟩ => show win0_2.index t (3 : Fin 4) * 64 + 1 * d.val = (i 3).val; omega

/-- Row r, feature d of the value block at point t is the value array at (batch, head, 1024·tile + r, d). -/
theorem read_values (c : Dev nD) (t : Fin cfg0.N) (r : Fin 1024) (d : Fin 64) (i : S4x16x4096x64.Idx)
    (h0 : (i 0).val = t.val / 64) (h1 : (i 1).val = t.val / 4 % 16) (h2 : (i 2).val = t.val % 4 * 1024 + r.val) (h3 : (i 3).val = d.val) :
    (iblk m c 3 t : Vec Ideal S1x1x1024x64 .f32) (ix4 (0 : Fin 1) (0 : Fin 1) r d) = (V m c main_arg2 : S4x16x4096x64.Idx → EReal) i := by
  obtain ⟨-, -, -, -, -, -, -, -, -, -, -, -, a0, a1, a2, a3, -⟩ := idx_facts t
  unfold iblk
  rw [View.read_apply]
  refine congrArg (V m c main_arg2 : S4x16x4096x64.Idx → EReal) (funext fun a => Fin.ext ?_)
  match a with
  | ⟨0, _⟩ => show win0_3.index t (0 : Fin 4) * 1 + 1 * 0 = (i 0).val; omega
  | ⟨1, _⟩ => show win0_3.index t (1 : Fin 4) * 1 + 1 * 0 = (i 1).val; omega
  | ⟨2, _⟩ => show win0_3.index t (2 : Fin 4) * 1024 + 1 * r.val = (i 2).val; omega
  | ⟨3, _⟩ => show win0_3.index t (3 : Fin 4) * 64 + 1 * d.val = (i 3).val; omega

/-! ## What a point writes back -/

/-- Point t writes back block t of `whole`. -/
theorem flushed_eq (c : Dev nD) (t : Fin cfg0.N) :
    (dats m 0 c).flushed 4 t = ((cfg0.win 4).blk t).view.read (Elt Ideal) (whole m c) := by
  rw [flushed4]
  obtain ⟨-, -, -, -, -, -, -, -, -, -, -, -, -, -, -, -, e0, e1, e2, e3⟩ := idx_facts t
  funext j
  have hj0 : (j 0).val < 1 := (j 0).isLt
  have hj1 : (j 1).val < 1 := (j 1).isLt
  have hj2 : (j 2).val < 1024 := (j 2).isLt
  have hj3 : (j 3).val < 64 := (j 3).isLt
  show out0_4 (iblk m c 0 t) (iblk m c 1 t) (iblk m c 2 t) (iblk m c 3 t) j = whole m c (((cfg0.win 4).blk t).view.emb j)
  refine (block_eq (iblk m c 0 t) (iblk m c 1 t) (iblk m c 2 t) (iblk m c 3 t) j ⟨(j 2).val, hj2⟩ ⟨(j 3).val, hj3⟩ rfl rfl).trans ?_
  unfold whole attend
  refine mixed_congr (fun s => score_congr (fun k => ?_) (fun k => ?_)) (fun s => ?_) ?_
  · exact read_queries m c t _ k _
      (by show win0_4.index t (0 : Fin 4) * 1 + 1 * (j 0).val = t.val / 64; omega)
      (by show win0_4.index t (1 : Fin 4) * 1 + 1 * (j 1).val = t.val / 4 % 16; omega)
      (by show win0_4.index t (2 : Fin 4) * 1024 + 1 * (j 2).val = t.val % 4 * 1024 + (j 2).val; omega)
      rfl
  · exact read_keys m c t s k _
      (by show win0_4.index t (0 : Fin 4) * 1 + 1 * (j 0).val = t.val / 64; omega)
      (by show win0_4.index t (1 : Fin 4) * 1 + 1 * (j 1).val = t.val / 4 % 16; omega)
      rfl rfl
  · exact read_sketch m c t s _ _
      (by show win0_4.index t (0 : Fin 4) * 1 + 1 * (j 0).val = t.val / 64; omega)
      (by show win0_4.index t (1 : Fin 4) * 1 + 1 * (j 1).val = t.val / 4 % 16; omega)
      rfl
      (by show win0_4.index t (3 : Fin 4) * 64 + 1 * (j 3).val = (j 3).val; omega)
  · exact read_values m c t _ _ _
      (by show win0_4.index t (0 : Fin 4) * 1 + 1 * (j 0).val = t.val / 64; omega)
      (by show win0_4.index t (1 : Fin 4) * 1 + 1 * (j 1).val = t.val / 4 % 16; omega)
      (by show win0_4.index t (2 : Fin 4) * 1024 + 1 * (j 2).val = t.val % 4 * 1024 + (j 2).val; omega)
      (by show win0_4.index t (3 : Fin 4) * 64 + 1 * (j 3).val = (j 3).val; omega)

/-! ## The blocks tile the array -/

/-- An index is in point t's output block iff each coordinate is in the block's range on its axis. -/
theorem mem_blk (t : Fin cfg0.N) (i : S4x16x4096x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v9).slice (win0_4.rect t)).set ↔ _
  rw [View.set_slice_whole, Rect.mem_set_unit]
  exact Iff.rfl

/-- Every index (b, h, n, d) of the result is in the block of the point (b, h, n / 1024). -/
theorem covered (i : S4x16x4096x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 4096 := (i 2).isLt
  have hi3 : (i 3).val < 64 := (i 3).isLt
  have hN : cfg0.N = 256 := N_0
  obtain ⟨t, ht⟩ : ∃ t : Fin cfg0.N, t.val = ((i 0).val * 16 + (i 1).val) * 4 + (i 2).val / 1024 :=
    ⟨⟨((i 0).val * 16 + (i 1).val) * 4 + (i 2).val / 1024, by rw [hN]; omega⟩, rfl⟩
  obtain ⟨-, -, -, -, -, -, -, -, -, -, -, -, -, -, -, -, e0, e1, e2, e3⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- So the result array ends holding `whole`. -/
theorem final (c : Dev nD) : (dats m 0 c).arrAt 4 cfg0.N = whole m c :=
  (dats m 0 c).arrAt_eq_of_cover 4 (whole m c) (fun t _ => flushed_eq m c t) covered

/-- The kernel's run, read: the result array at `whole`, the four arguments unchanged. -/
theorem run : θ_run defs (onTc (τ := τ) (main (F := Ideal))) ⟨m, fun _ => 0, ρ⟩ fun r => ∀ c : Dev nD,
      r.2.mem ((c : Thread nD τ).loc main_v9) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.ReferenceStages.lean ====
/-
  The reference, stage by stage, is the same function of its arguments.

  Read at (b, h, n, s) the reference's scaled scores are the inner product of query row n with averaged key
  row s, divided by 8 — which is the product with 1/8 on every extended real; its row maximum is the fold of
  max over the 512 slots from −∞'s word, then the maximum with that word; the exponentials, their sum (from
  the zero word, which is 0) and the quotient are the soft-max weights; and the last contraction over the 512
  slots against the averaged values, plus the value itself, is `attend`.
-/
import proofs.«117137_j41257455845835_1_alg».proof.Proof.Gen.ReferenceIdeal.Read
import proofs.«117137_j41257455845835_1_alg».proof.Proof.SoftmaxRow
import Idealize.ShloMosaic.PureOps.Reduce

noncomputable section

namespace Cert.ReferenceIdeal.Whole

open Cert.ReferenceIdeal Cert.ReferenceIdeal.Gen Cert.ReferenceIdeal.Read
open Idealize.ShloMosaic Idealize.ShloMosaic.ValueIdx SketchAttention

variable (x0 x1 x2 : (⟨S4x16x4096x64, .f32⟩ : BufTy).Contents (Elt Ideal))

/-! ## The stages' index maps, in coordinates -/

theorem lidx5 (b : Fin 4) (h : Fin 16) (n : Fin 4096) (s : Fin 512) (k : Fin 64) :
    lidx_main_v5 (ix4 b h n s) k = ix4 b h n k := funext fun a => Fin.ext (by match a with | ⟨0, _⟩ => rfl | ⟨1, _⟩ => rfl | ⟨2, _⟩ => rfl | ⟨3, _⟩ => rfl)
theorem ridx5 (b : Fin 4) (h : Fin 16) (n : Fin 4096) (s : Fin 512) (k : Fin 64) :
    ridx_main_v5 (ix4 b h n s) k = ix4 b h s k := funext fun a => Fin.ext (by match a with | ⟨0, _⟩ => rfl | ⟨1, _⟩ => rfl | ⟨2, _⟩ => rfl | ⟨3, _⟩ => rfl)
theorem idx12 (b : Fin 4) (h : Fin 16) (n : Fin 4096) (s : Fin 512) :
    idx_main_v12 (ix4 b h n s) = ix4 b h n (0 : Fin 1) := funext fun a => Fin.ext (by match a with | ⟨0, _⟩ => rfl | ⟨1, _⟩ => rfl | ⟨2, _⟩ => rfl | ⟨3, _⟩ => rfl)
theorem idx11 (b : Fin 4) (h : Fin 16) (n : Fin 4096) (u : Fin 1) :
    idx_main_v11 (ix4 b h n u) = ix3 b h n := funext fun a => Fin.ext (by match a with | ⟨0, _⟩ => rfl | ⟨1, _⟩ => rfl | ⟨2, _⟩ => rfl)
theorem idx17 (b : Fin 4) (h : Fin 16) (n : Fin 4096) (s : Fin 512) :
    idx_main_v17 (ix4 b h n s) = ix4 b h n (0 : Fin 1) := funext fun a => Fin.ext (by match a with | ⟨0, _⟩ => rfl | ⟨1, _⟩ => rfl | ⟨2, _⟩ => rfl | ⟨3, _⟩ => rfl)
theorem idx16 (b : Fin 4) (h : Fin 16) (n : Fin 4096) (u : Fin 1) :
    idx_main_v16 (ix4 b h n u) = ix3 b h n := funext fun a => Fin.ext (by match a with | ⟨0, _⟩ => rfl | ⟨1, _⟩ => rfl | ⟨2, _⟩ => rfl)
theorem idx15 (b : Fin 4) (h : Fin 16) (n : Fin 4096) (s : Fin 512) :
    idx_main_v15 (ix3 b h n) s = ix4 b h n s := funext fun a => Fin.ext (by match a with | ⟨0, _⟩ => rfl | ⟨1, _⟩ => rfl | ⟨2, _⟩ => rfl | ⟨3, _⟩ => rfl)
theorem lidx23 (b : Fin 4) (h : Fin 16) (n : Fin 4096) (d : Fin 64) (s : Fin 512) :
    lidx_main_v23 (ix4 b h n d) s = ix4 b h n s := funext fun a => Fin.ext (by match a with | ⟨0, _⟩ => rfl | ⟨1, _⟩ => rfl | ⟨2, _⟩ => rfl | ⟨3, _⟩ => rfl)
theorem ridx23 (b : Fin 4) (h : Fin 16) (n : Fin 4096) (d : Fin 64) (s : Fin 512) :
    ridx_main_v23 (ix4 b h n d) s = ix4 b h s d := funext fun a => Fin.ext (by match a with | ⟨0, _⟩ => rfl | ⟨1, _⟩ => rfl | ⟨2, _⟩ => rfl | ⟨3, _⟩ => rfl)

/-! ## The stages -/

/-- The scaled scores: query row n against averaged key row s, times 1/8. -/
theorem scores_apply (b : Fin 4) (h : Fin 16) (n : Fin 4096) (s : Fin 512) :
    val_main_v7 (F := Ideal) x0 x1 (ix4 b h n s)
      = score (fun k => x0 (ix4 b h n k)) (fun k => val_main_v4 (F := Ideal) x1 (ix4 b h s k)) := by
  rw [val_main_v7_apply, val_main_v5_apply, val_main_v6_apply, val_main_cst_1_apply]
  simp only [lidx5, ridx5]
  exact div_eight _

/-- The soft-max's shift of row n: the maximum of −∞'s word with the fold of max over the row's scores. -/
theorem shift_apply (b : Fin 4) (h : Fin 16) (n : Fin 4096) :
    val_main_v10 (F := Ideal) x0 x1 (ix3 b h n) = rowMax (fun s => val_main_v7 (F := Ideal) x0 x1 (ix4 b h n s)) := by
  rw [val_main_v10_apply, val_main_v9_apply, val_main_cst_3_apply]
  unfold val_main_v8
  rw [Host.reduce_eq_fold_single FloatOps.maximumf _ _ reducesTo_S4x16x4096x512_S4x16x4096_d3 (by decide) h_S_]
  have e : (val_main_v7 (F := Ideal) x0 x1 ∘ (by decide : S4x16x4096x512.Reduces [3] S4x16x4096).lift (ix3 b h n))
      = fun s : Fin 512 => val_main_v7 (F := Ideal) x0 x1 (ix4 b h n s) :=
    funext fun s => congrArg (val_main_v7 (F := Ideal) x0 x1) (funext fun a => Fin.ext (by match a with | ⟨0, _⟩ => rfl | ⟨1, _⟩ => rfl | ⟨2, _⟩ => rfl | ⟨3, _⟩ => rfl))
  rw [e]
  rfl

/-- The exponentials of the shifted scores. -/
theorem exps_apply (b : Fin 4) (h : Fin 16) (n : Fin 4096) (s : Fin 512) :
    val_main_v14 (F := Ideal) x0 x1 (ix4 b h n s)
      = Ideal.exp (val_main_v7 (F := Ideal) x0 x1 (ix4 b h n s) - rowMax (fun s' => val_main_v7 (F := Ideal) x0 x1 (ix4 b h n s'))) := by
  rw [val_main_v14_apply, val_main_v13_apply, val_main_v12_apply, idx12, val_main_v11_apply, idx11, shift_apply]
  rfl

/-- Their sum over the 512 slots (the initial word is zero). -/
theorem denom_apply (b : Fin 4) (h : Fin 16) (n : Fin 4096) :
    val_main_v15 (F := Ideal) x0 x1 (ix3 b h n) = ∑ s : Fin 512, val_main_v14 (F := Ideal) x0 x1 (ix4 b h n s) := by
  rw [val_main_v15_apply, val_main_cst_4_apply]
  simp only [idx15]
  show Ideal.ofBits .f32 0x00000000#32 + _ = _
  rw [Ideal.ofBits_zero_f32, zero_add]

/-- The quotient: the soft-max weight of slot s in row n. -/
theorem weights_apply (b : Fin 4) (h : Fin 16) (n : Fin 4096) (s : Fin 512) :
    val_main_v18 (F := Ideal) x0 x1 (ix4 b h n s) = weight (fun s' => val_main_v7 (F := Ideal) x0 x1 (ix4 b h n s')) s := by
  rw [val_main_v18_apply, val_main_v17_apply, idx17, val_main_v16_apply, idx16, denom_apply, exps_apply]
  unfold weight
  exact congrArg (Ideal.div _) (Finset.sum_congr rfl fun s' _ => exps_apply x0 x1 b h n s')

/-- The reference's last stage is `attend` of the queries, the averaged keys, the averaged values and the values. -/
theorem stage_eq :
    val_main_v24 (F := Ideal) x0 x1 x2 = attend x0 (val_main_v4 (F := Ideal) x1) (val_main_v22 (F := Ideal) x2) x2 := by
  funext i
  obtain ⟨b, h, n, d, rfl⟩ : ∃ (b : Fin 4) (h : Fin 16) (n : Fin 4096) (d : Fin 64), i = ix4 b h n d :=
    ⟨i 0, i 1, i 2, i 3, eq_ix4 i⟩
  rw [val_main_v24_apply, val_main_v23_apply, attend_apply]
  simp only [lidx23, ridx23, weights_apply, scores_apply]
  rfl

end Cert.ReferenceIdeal.Whole

end
-- ==== Proof.lean ====
/-
  Sketched attention: the kernel against its reference, over the extended reals.

  Both programs average the keys (after the reference's transpose-and-regroup) and the values in chunks of 8
  with the SAME host operations, giving 512 sketch rows per (batch, head). The kernel then runs, per
  (batch, head, 1024-row tile), queries · sketched-keysᵀ scaled by 1/8, a soft-max over the 512 slots, the mix
  of the sketched values and the residual value; the reference does the same with two batched contractions
  over the whole arrays, dividing by 8. Read index by index both results are `SketchAttention.attend` of the
  queries, the averaged keys, the averaged values and the values (Proof/KernelArray.lean for the kernel's
  blocks, Proof/ReferenceStages.lean for the reference's stages), and dividing by 8 is multiplying by 1/8 on
  every extended real, so the claim needs nothing of the precondition. The averaged arrays are equal because
  they are one term of the key (value) argument in both programs. The three frames are the generated runs;
  the idealization rewrote nothing, so `preserves` is trivial.
-/
import proofs.«117137_j41257455845835_1_alg».proof.Defs
import proofs.«117137_j41257455845835_1_alg».proof.Proof.Gen.Kernel
import proofs.«117137_j41257455845835_1_alg».proof.Proof.Gen.Kernel.Skeleton
import proofs.«117137_j41257455845835_1_alg».proof.Proof.Gen.Kernel.Launch
import proofs.«117137_j41257455845835_1_alg».proof.Proof.Gen.Kernel.Points
import proofs.«117137_j41257455845835_1_alg».proof.Proof.Gen.Kernel.Frame
import proofs.«117137_j41257455845835_1_alg».proof.Proof.Gen.KernelIdeal
import proofs.«117137_j41257455845835_1_alg».proof.Proof.Gen.KernelIdeal.Skeleton
import proofs.«117137_j41257455845835_1_alg».proof.Proof.Gen.KernelIdeal.Launch
import proofs.«117137_j41257455845835_1_alg».proof.Proof.Gen.KernelIdeal.Points
import proofs.«117137_j41257455845835_1_alg».proof.Proof.Gen.KernelIdeal.Frame
import proofs.«117137_j41257455845835_1_alg».proof.Proof.Gen.ReferenceIdeal
import proofs.«117137_j41257455845835_1_alg».proof.Proof.Gen.Pre_finite_inputs
import proofs.«117137_j41257455845835_1_alg».proof.Proof.Gen.KernelIdeal.Value
import proofs.«117137_j41257455845835_1_alg».proof.Proof.Gen.ReferenceIdeal.Run
import proofs.«117137_j41257455845835_1_alg».proof.Proof.Gen.ReferenceIdeal.Read
import proofs.«117137_j41257455845835_1_alg».proof.Proof.KernelArray
import proofs.«117137_j41257455845835_1_alg».proof.Proof.ReferenceStages
import Idealize.ShloMosaic.Adequacy
import Idealize.ShloMosaic.Init
import Idealize.ShloMosaic.Lib.StableHlo.Run

noncomputable section

namespace Cert.Proof

open Idealize.ShloMosaic Idealize.ShloMosaic.TcCoe Idealize.SL.Sem Idealize.ShloMosaic.StableHlo SketchAttention

/-! ## The shared host head: the averaged keys and the averaged values -/

/-- The averaged keys the kernel's region finds are the reference's averaged-key stage of the same key argument:
    the transpose, the regrouping into chunks of 8, the chunk sum and the division by 8 are the same operations. -/
theorem keys_head (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v4 : Cert.KernelIdeal.S4x16x512x64.Idx → EReal)
      = Cert.ReferenceIdeal.Read.val_main_v4 (F := Ideal) (m ((c : Thread Cert.KernelIdeal.nD Cert.KernelIdeal.τ).loc Cert.KernelIdeal.main_arg1)) := by
  dsimp only [Cert.KernelIdeal.Gen.V, Cert.KernelIdeal.Gen.hostOps0]
  after_results
  rfl

/-- Likewise the averaged values are the reference's averaged-value stage of the same value argument. -/
theorem values_head (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v8 : Cert.KernelIdeal.S4x16x512x64.Idx → EReal)
      = Cert.ReferenceIdeal.Read.val_main_v22 (F := Ideal) (m ((c : Thread Cert.KernelIdeal.nD Cert.KernelIdeal.τ).loc Cert.KernelIdeal.main_arg2)) := by
  dsimp only [Cert.KernelIdeal.Gen.V, Cert.KernelIdeal.Gen.hostOps0]
  after_results
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel's result array ends at `attend` of what its region finds
    and the reference's at `attend` of its own stages of the same arguments: one function of equal arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Whole.stage_eq,
    (hagree c).1, (hagree c).2.1, (hagree c).2.2.1]
  exact congr (congr (congr (congrArg attend (Cert.KernelIdeal.Gen.V_main_arg0 m c).symm) (keys_head m c).symm)
    (values_head m c).symm) (Cert.KernelIdeal.Gen.V_main_arg2 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
